-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294917296#32
  let main_v19 : IVec S1600000 32 := broadcastInDim S1600000 ![] bcast_S_S1600000 main_c_6
  let main_v20 : IVec S1600000 1 := cmpi .sge main_arg2 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 50000#32
  let main_v23 : IVec S1600000 32 := broadcastInDim S1600000 ![] bcast_S_S1600000 main_c_8
  let main_v24 : IVec S1600000 1 := cmpi .slt main_arg2 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S50000x512 .f32) (main_arg1 : IVec S1600000 32) (main_arg2 : IVec S1600000 32) (main_arg3 : FVec F S1600000 .f32) (main_arg4 : FVec F S512x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_v13 main_v16
-- ==== Kernel.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S50000x128 : Shape := ⟨2, ![50000, 128]⟩
abbrev S1000x512 : Shape := ⟨2, ![1000, 512]⟩
abbrev S1000x128 : Shape := ⟨2, ![1000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 39
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S50000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S1x128, .f32⟩
  | .hbm, ⟨38, _⟩ => ⟨S50000x128, .f32⟩
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S1000x512_S512x128_S1000x128_1_0_0_1_n_n_wf : DotDims.WF S1000x512 S512x128 S1000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S50000x128 : Shape := ⟨2, ![50000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S50000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.PreRange.lean ====
/-
  What the precondition says of the column indices: every entry `e` of the third argument satisfies
  `-50000 ≤ e < 50000` as a signed 32-bit word. The precondition is a conjunction of "all" tests, each an `and`
  reduction of a vector of bits to one bit; the last two test `e ≥ -50000` and `e < 50000` entry by entry.
-/
import proofs.«424728_j53249004535835_1_alg».proof.Pre_finite_inputs
import Idealize.ShloMosaic.Lib.ReduceAll
import Idealize.ShloMosaic.Lib.Affine
import Idealize.ShloMosaic.Lib.StableHlo.Predicate

noncomputable section

namespace Cert.PreRange

open Idealize.ShloMosaic Cert.Pre_finite_inputs

variable [Cert.Pre_finite_inputs.Facts] {F : FTy → Type} [FloatOps F]

instance : Subsingleton S_.Idx := ⟨fun a b => funext fun d => d.elim0⟩

/-- Under the precondition every column index lies in `[-50000, 50000)`, as the two signed comparisons. -/
theorem col_range (a0 : FVec F S50000x512 .f32) (a1 a2 : IVec S1600000 32) (a3 : FVec F S1600000 .f32)
    (a4 : FVec F S512x128 .f32) (a5 : FVec F S128 .f32)
    (h : Cert.Pre_finite_inputs.fn (F := F) a0 a1 a2 a3 a4 a5 = fun _ => 1#1) (k : S1600000.Idx) :
    IntOp.cmpi .sge (a2 k) 4294917296#32 = 1#1 ∧ IntOp.cmpi .slt (a2 k) 50000#32 = 1#1 := by
  have h0 := congrFun h (fun d => d.elim0)
  dsimp only [Cert.Pre_finite_inputs.fn, Cert.Pre_finite_inputs.fn_part1] at h0
  obtain ⟨h1, hlt⟩ := IntOp.andi_eq_one.mp h0
  obtain ⟨-, hge⟩ := IntOp.andi_eq_one.mp h1
  have g : IntOp.cmpi .sge (a2 k) (broadcastInDim S1600000 ![] Facts.bcast_S_S1600000 (constantI S_ 32 4294917296#32) k) = 1#1 :=
    Host.reduce_andi_all _ _ _ _ _ hge k
  have l : IntOp.cmpi .slt (a2 k) (broadcastInDim S1600000 ![] Facts.bcast_S_S1600000 (constantI S_ 32 50000#32) k) = 1#1 :=
    Host.reduce_andi_all _ _ _ _ _ hlt k
  rw [StableHlo.Predicate.bcast_scalar Facts.bcast_S_S1600000 Facts.h_S_] at g l
  exact ⟨g, l⟩

end Cert.PreRange

end
-- ==== Proof.Middle.lean ====
/-
  The host operations between the two launches, as functions of the buffers they read.

  Row gather (`taken`): a column index `e` is normalised (a negative one counts from the end of the 50000 rows), the
  table's row at the normalised index is read (`Host.gather`), and where the normalised index fails the range test
  `0 ≤ · ≤ 49999` the row is replaced by a fill value. Scaling and row sums (`aggregate`): each gathered row is
  multiplied by its edge's weight and added into the output row its edge names, starting from zeros. The bias vector is
  laid out as a 1 × 128 row.
-/
import proofs.«424728_j53249004535835_1_alg».proof.Proof.Gen.KernelIdeal.Frame
import Idealize.ShloMosaic.Lib.StableHlo.Run

set_option maxRecDepth 16384

noncomputable section

namespace Cert.KernelIdeal.Middle

open Cert.KernelIdeal Cert.KernelIdeal.Gen Idealize.ShloMosaic Idealize.ShloMosaic.TcCoe Idealize.SL.Sem Idealize.ShloMosaic.StableHlo

variable {F : FTy → Type} [FloatOps F]

/-- The normalised column indices, as an [E × 1] column of start indices. -/
def idxCol (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 50000#32))) e)

/-- The range test `0 ≤ · ≤ 49999` of each normalised index, one bit per edge. -/
def inRange (e : IVec S1600000 32) : IVec S1600000 1 :=
  Host.reduce IntOp.andi
    (andi (cmpi .sge (idxCol e) (broadcastInDim S1600000x1 ![] bcast_S_S1600000x1 (constantI S_ 32 0#32)))
      (cmpi .sle (idxCol e) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The gathered rows, out-of-range ones filled. -/
def taken (s : FVec F S50000x128 .f32) (e : IVec S1600000 32) : FVec F S1600000x128 .f32 :=
  select (broadcastInDim S1600000x128 ![0] bcast_S1600000_S1600000x128_0 (inRange e))
    (Host.gather gather_S50000x128_S1600000x1_S1600000x128_1_0_n_n_0_1_1128 s (idxCol e))
    (broadcastInDim S1600000x128 ![] bcast_S_S1600000x128 (constant S_ .f32 0x7FC00000#32))

/-- The scaled rows summed into the rows the edges name. -/
def aggregate (g : FVec F S1600000x128 .f32) (r : IVec S1600000 32) (v : FVec F S1600000 .f32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 r)
    (mulf (broadcastInDim S1600000x128 ![0, 1] bcast_S1600000x1_S1600000x128_0_1
      (broadcastInDim S1600000x1 ![0] bcast_S1600000_S1600000x1_0 v)) g)

/-- The bias vector as a 1 × 128 row. -/
def biasRow (b : FVec F S128 .f32) : FVec F S1x128 .f32 := shapeCast S1x128 b shapeCasts_S128_S1x128

/-! ## The two stretches read back -/

/-- A value carried to a buffer's own type and back is the value: the two transports are along one equation. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- A buffer's contents read at the buffer's own type are the contents: the transport is along an equation between
    equal types. The two buffers the gather stretch reads. -/
theorem read_cols (W : Valuation τ sig (Elt F)) :
    (TRef.of main_arg2 : TRef sig ⟨S1600000, .i32⟩).ofBuf (W (Proc.devRef .tc main_arg2))
      = (W (Proc.devRef .tc main_arg2) : IVec S1600000 32) :=
  eq_of_heq (cast_heq _ _)
theorem read_table (W : Valuation τ sig (Elt F)) :
    (TRef.of main_v0 : TRef sig ⟨S50000x128, .f32⟩).ofBuf (W (Proc.devRef .tc main_v0))
      = (W (Proc.devRef .tc main_v0) : FVec F S50000x128 .f32) :=
  eq_of_heq (cast_heq _ _)

/-- The gather stretch leaves `taken` of the table and the column indices it found: every intermediate is carried to
    its buffer's type and back (`ofBuf_toBuf`), which leaves the operations applied to the two buffers read. -/
theorem take_eq (W : Valuation τ sig (Elt F)) :
    StableHlo.after hostOps1 W (Proc.devRef .tc main_v1) = taken (W (Proc.devRef .tc main_v0)) (W (Proc.devRef .tc main_arg2)) := by
  generalize hX : taken (W (Proc.devRef .tc main_v0)) (W (Proc.devRef .tc main_arg2)) = X
  after_results_simp
  simp only [ofBuf_toBuf]
  rw [← hX]
  refine (eq_of_heq (cast_heq _ _)).trans ?_
  rw [read_cols W, read_table W]
  rfl

/-- The second stretch leaves `aggregate` of the gathered rows, the row indices and the edge weights it found. -/
theorem agg_eq (W : Valuation τ sig (Elt F)) :
    StableHlo.after hostOps1_1 W (Proc.devRef .tc main_v7)
      = aggregate (W (Proc.devRef .tc main_v1)) (W (Proc.devRef .tc main_arg1)) (W (Proc.devRef .tc main_arg3)) := by
  generalize hX : aggregate (W (Proc.devRef .tc main_v1)) (W (Proc.devRef .tc main_arg1)) (W (Proc.devRef .tc main_arg3)) = X
  after_results_simp
  rw [← hX]
  rfl

/-- and the bias row of the bias vector it found. -/
theorem bias_eq (W : Valuation τ sig (Elt F)) :
    StableHlo.after hostOps1_1 W (Proc.devRef .tc main_v8) = biasRow (W (Proc.devRef .tc main_arg5)) := by
  generalize hX : biasRow (W (Proc.devRef .tc main_arg5)) = X
  after_results_simp
  rw [← hX]
  rfl

/-- The gather stretch writes none of the buffers the second stretch reads besides its own result. -/
theorem take_keeps_arg1 (W : Valuation τ sig (Elt F)) :
    StableHlo.after hostOps1 W (Proc.devRef .tc main_arg1) = W (Proc.devRef .tc main_arg1) := by
  after_results_simp
theorem take_keeps_arg3 (W : Valuation τ sig (Elt F)) :
    StableHlo.after hostOps1 W (Proc.devRef .tc main_arg3) = W (Proc.devRef .tc main_arg3) := by
  after_results_simp
theorem take_keeps_arg5 (W : Valuation τ sig (Elt F)) :
    StableHlo.after hostOps1 W (Proc.devRef .tc main_arg5) = W (Proc.devRef .tc main_arg5) := by
  after_results_simp

end Cert.KernelIdeal.Middle

end
-- ==== Proof.Region0.lean ====
/-
  The first launch: the dense product `x · w` of the 50000 × 512 features and the 512 × 128 weights, 50 grid points
  of 1000 rows each, read over the extended reals.

  At point `t` the body loads rows `1000 t … 1000 t + 999` of `x` and the whole of `w`, narrows both to bf16 (the
  identity on exact values), multiplies them into a zero accumulator and stores the 1000 × 128 product over the same
  rows of the output. An entry of a block's product is the sum over the 512 inner indices of the products of a row
  entry of `x` and a column entry of `w`; the 50 row blocks tile the array, so after the launch the output holds
  `∑ k, x (r, k) · w (k, q)` at every index `(r, q)`.
-/
import proofs.«424728_j53249004535835_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_corner : (![0, 0] : Fin 2 → Nat) = fun _ => 0 := funext fun a => by fin_cases a <;> rfl

/-- Entry `k` of row `i 0` of the features. -/
def rowEntry (i : S50000x128.Idx) (k : Fin 512) : S50000x512.Idx := fun a => match a with
  | ⟨0, _⟩ => ⟨(i 0).val, (i 0).isLt⟩
  | ⟨1, _⟩ => ⟨k.val, k.isLt⟩

/-- Entry `k` of column `i 1` of the weights. -/
def colEntry (i : S50000x128.Idx) (k : Fin 512) : S512x128.Idx := fun a => match a with
  | ⟨0, _⟩ => ⟨k.val, k.isLt⟩
  | ⟨1, _⟩ => ⟨(i 1).val, (i 1).isLt⟩

/-- The same two inside a block of 1000 rows. -/
def rowEntryBlk (j : S1000x128.Idx) (k : Fin 512) : S1000x512.Idx := fun a => match a with
  | ⟨0, _⟩ => ⟨(j 0).val, (j 0).isLt⟩
  | ⟨1, _⟩ => ⟨k.val, k.isLt⟩
def colEntryBlk (j : S1000x128.Idx) (k : Fin 512) : S512x128.Idx := fun a => match a with
  | ⟨0, _⟩ => ⟨k.val, k.isLt⟩
  | ⟨1, _⟩ => ⟨(j 1).val, (j 1).isLt⟩

/-- The matrix product over the extended reals, entry by entry. -/
abbrev matProd (x : S50000x512.Idx → Elt Ideal .f32) (w : S512x128.Idx → Elt Ideal .f32) : S50000x128.Idx → Elt Ideal .f32 :=
  fun i => ∑ k : Fin 512, x (rowEntry i k) * w (colEntry i k)

/-! The block product's operand indices, one axis at a time. -/

theorem lhs_axis0 (j : S1000x128.Idx) (q : dot_S1000x512_S512x128_S1000x128_1_0_0_1_n_n.contr.Idx) :
    (dot_S1000x512_S512x128_S1000x128_1_0_0_1_n_n.lhsIdx j q 0).val = (j 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem lhs_axis1 (j : S1000x128.Idx) (q : dot_S1000x512_S512x128_S1000x128_1_0_0_1_n_n.contr.Idx) :
    (dot_S1000x512_S512x128_S1000x128_1_0_0_1_n_n.lhsIdx j q 1).val = (q ⟨0, by decide⟩).val :=
  dot_S1000x512_S512x128_S1000x128_1_0_0_1_n_n.lhsIdx_val_of_single rfl j q
theorem rhs_axis0 (j : S1000x128.Idx) (q : dot_S1000x512_S512x128_S1000x128_1_0_0_1_n_n.contr.Idx) :
    (dot_S1000x512_S512x128_S1000x128_1_0_0_1_n_n.rhsIdx j q 0).val = (q ⟨0, by decide⟩).val :=
  dot_S1000x512_S512x128_S1000x128_1_0_0_1_n_n.rhsIdx_val_of_single rfl j q
theorem rhs_axis1 (j : S1000x128.Idx) (q : dot_S1000x512_S512x128_S1000x128_1_0_0_1_n_n.contr.Idx) :
    (dot_S1000x512_S512x128_S1000x128_1_0_0_1_n_n.rhsIdx j q 1).val = (j 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- The body's stored value at an index of the block: the inner product of a row of the loaded features with a
    column of the loaded weights. -/
theorem pay_apply (x0 : Vec Ideal S1000x512 .f32) (x1 : Vec Ideal S512x128 .f32) (j : S1000x128.Idx) :
    k0_pay1 (F := Ideal) x0 x1 j = ∑ k : Fin 512, x0 (rowEntryBlk j k) * x1 (colEntryBlk j k) := by
  unfold k0_pay1
  show FloatOps.matmul dot_S1000x512_S512x128_S1000x128_1_0_0_1_n_n none (truncf (F := Ideal) .bf16 x0 bitsLt_bf16_f32) (truncf (F := Ideal) .bf16 x1 bitsLt_bf16_f32)
      (constant (F := Ideal) S1000x128 .f32 0x00000000#32) j = _
  rw [Ideal.matmul_constant_zero_apply, ← Equiv.sum_comp (ValueIdx.contrEquiv1 dot_S1000x512_S512x128_S1000x128_1_0_0_1_n_n 512 rfl rfl).symm]
  refine Finset.sum_congr rfl fun k _ => ?_
  have hk := ValueIdx.contrEquiv1_symm_val dot_S1000x512_S512x128_S1000x128_1_0_0_1_n_n 512 rfl rfl k
  have el : dot_S1000x512_S512x128_S1000x128_1_0_0_1_n_n.lhsIdx j ((ValueIdx.contrEquiv1 dot_S1000x512_S512x128_S1000x128_1_0_0_1_n_n 512 rfl rfl).symm k) = rowEntryBlk j k := funext fun a => Fin.ext (by
    match a with
    | ⟨0, _⟩ => exact lhs_axis0 _ _
    | ⟨1, _⟩ => exact (lhs_axis1 _ _).trans hk)
  have er : dot_S1000x512_S512x128_S1000x128_1_0_0_1_n_n.rhsIdx j ((ValueIdx.contrEquiv1 dot_S1000x512_S512x128_S1000x128_1_0_0_1_n_n 512 rfl rfl).symm k) = colEntryBlk j k := funext fun a => Fin.ext (by
    match a with
    | ⟨0, _⟩ => exact (rhs_axis0 _ _).trans hk
    | ⟨1, _⟩ => exact rhs_axis1 _ _)
  rw [el, er]
  rfl

/-- The two arrays the launch reads, as the launch finds them, at their literal types. -/
abbrev xarr (c : Dev nD) : S50000x512.Idx → Elt Ideal .f32 := V c main_arg0
abbrev warr (c : Dev nD) : S512x128.Idx → Elt Ideal .f32 := V c main_arg4

/-- The printed index maps over the 50 points: the features' row block moves with the output's; the weights are always
    block (0, 0); the output's column block is 0 and its row block at most 49. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 49 ∧ win0_2.index t (1 : Fin 2) = 0 :=
  (by decide +kernel : ∀ t : Fin grid0.N, _)

/-- Every one of the 50 row blocks is some point's. -/
theorem idx_onto : ∀ q : Fin 50, ∃ t : Fin cfg0.N, win0_2.index t (0 : Fin 2) = q.val :=
  (by decide +kernel : ∀ q : Fin 50, ∃ t : Fin grid0.N, win0_2.index t (0 : Fin 2) = q.val)

/-- What point `t` writes back is block `t` of the product of the arrays the launch was entered with. -/
theorem flushed_eq (c : Dev nD) (t : Fin cfg0.N) :
    (dat0 V c).flushed 2 t = ((cfg0.win 2).blk t).view.read (Elt Ideal) (matProd (V c main_arg0) (V c main_arg4)) := by
  show (cfg0.win 2).cut (grid0.coords t) ((dat0 V c).after 2 t) = _
  rw [after0_2]
  unfold out0_2
  rw [View.canon_unit_zero zero_corner]
  simp only [View.ld_unit_zero (S := S1000x512) zero_corner, View.ld_unit_zero (S := S512x128) zero_corner]
  obtain ⟨e0, e1, e2, e3, e4, e5⟩ := idx_facts t
  funext j
  show k0_pay1 (F := Ideal) (iblk0 V c 0 t) (iblk0 V c 1 t) j = matProd (V c main_arg0) (V c main_arg4) (((cfg0.win 2).blk t).view.emb j)
  refine (pay_apply (iblk0 V c 0 t) (iblk0 V c 1 t) j).trans ?_
  refine Finset.sum_congr rfl fun k _ => ?_
  show xarr V c (((cfg0.win 0).blk t).view.emb (rowEntryBlk j k)) * warr V c (((cfg0.win 1).blk t).view.emb (colEntryBlk j k))
    = xarr V c (rowEntry (((cfg0.win 2).blk t).view.emb j) k) * warr V c (colEntry (((cfg0.win 2).blk t).view.emb j) k)
  have h0 : ((cfg0.win 0).blk t).view.emb (rowEntryBlk j k) = rowEntry (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  have h1 : ((cfg0.win 1).blk t).view.emb (colEntryBlk j k) = colEntry (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- The 50 blocks of 1000 rows cover the 50000 rows: row `r` is in block `r / 1000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 1000, by omega⟩
  have q0 : win0_2.index t (0 : Fin 2) = (i 0).val / 1000 := ht
  obtain ⟨-, -, -, -, -, e5⟩ := idx_facts t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- THE OUTPUT ARRAY after the launch: the matrix product of the features and the weights it was entered with. -/
theorem final (c : Dev nD) : (dat0 V c).arrAt 2 cfg0.N = matProd (V c main_arg0) (V c main_arg4) :=
  (dat0 V c).arrAt_eq_of_cover 2 (matProd (V c main_arg0) (V c main_arg4)) (fun t _ => flushed_eq V c t) cover

end Cert.KernelIdeal.Region0

end
-- ==== Proof.Region1.lean ====
/-
  The second launch: bias and rectification over the 50000 × 128 aggregate, 25 grid points of 2000 rows each.

  At point `t` the body loads rows `2000 t … 2000 t + 1999` of the aggregate and the whole 1 × 128 bias row, and
  stores `max (a + b, 0)` over the same rows of the output. The 25 row blocks tile the array, so after the launch
  the output holds, at every index `(r, q)`, `max (a (r, q) + b (0, q), 0)` of the arrays the launch was entered with.
-/
import proofs.«424728_j53249004535835_1_alg».proof.Proof.Gen.KernelIdeal.Frame
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_corner : (![0, 0] : Fin 2 → Nat) = fun _ => 0 := funext fun a => by fin_cases a <;> rfl

/-- The bias row's entry above column `i 1` of the array. -/
def biasAt (i : S50000x128.Idx) : S1x128.Idx := fun a => match a with
  | ⟨0, _⟩ => ⟨0, Nat.one_pos⟩
  | ⟨1, _⟩ => ⟨(i 1).val, (i 1).isLt⟩

/-- The same inside a block of 2000 rows. -/
def biasAtBlk (j : S2000x128.Idx) : S1x128.Idx := fun a => match a with
  | ⟨0, _⟩ => ⟨0, Nat.one_pos⟩
  | ⟨1, _⟩ => ⟨(j 1).val, (j 1).isLt⟩

/-- What the launch leaves in its output: `max (a + b, 0)`, the bias row `b` repeated down the rows. -/
abbrev biasRelu (a : S50000x128.Idx → Elt F .f32) (b : S1x128.Idx → Elt F .f32) : S50000x128.Idx → Elt F .f32 :=
  fun i => FloatOps.maximumf (FloatOps.addf (a i) (b (biasAt i))) (FloatOps.ofBits .f32 0x00000000#32)

/-- The body's stored value at an index of the block. -/
theorem pay_apply (x0 : Vec F S2000x128 .f32) (x1 : Vec F S1x128 .f32) (j : S2000x128.Idx) :
    k1_pay1 x0 x1 j = FloatOps.maximumf (FloatOps.addf (x0 j) (x1 (biasAtBlk j))) (FloatOps.ofBits .f32 0x00000000#32) := by
  unfold k1_pay1
  simp only [shapeCast_self]
  show FloatOps.maximumf (FloatOps.addf (x0 j) (broadcastTo S2000x128 x1 broadcasts_S1x128_S2000x128 j))
      (FloatOps.ofBits .f32 0x00000000#32) = _
  rw [broadcastTo_apply x1 broadcasts_S1x128_S2000x128 j (biasAtBlk j) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])]

/-- The printed index maps over the 25 points: the aggregate's block moves with the output's, down the rows; the
    bias row is always block (0, 0); point `t` writes row block `t`. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 24 ∧ win1_2.index t (1 : Fin 2) = 0 :=
  (by decide +kernel : ∀ t : Fin grid1.N, _)

/-- Every one of the 25 row blocks is some point's. -/
theorem idx_onto : ∀ q : Fin 25, ∃ t : Fin cfg1.N, win1_2.index t (0 : Fin 2) = q.val :=
  (by decide +kernel : ∀ q : Fin 25, ∃ t : Fin grid1.N, win1_2.index t (0 : Fin 2) = q.val)

/-- What point `t` writes back is block `t` of `biasRelu` of the arrays the launch was entered with. -/
theorem flushed_eq (c : Dev nD) (t : Fin cfg1.N) :
    (dat1 V c).flushed 2 t = ((cfg1.win 2).blk t).view.read (Elt F) (biasRelu (V c main_v7) (V c main_v8)) := by
  show (cfg1.win 2).cut (grid1.coords t) ((dat1 V c).after 2 t) = _
  rw [after1_2]
  unfold out1_2
  rw [View.canon_unit_zero zero_corner]
  simp only [View.ld_unit_zero (S := S2000x128) zero_corner, View.ld_unit_zero (S := S1x128) zero_corner]
  obtain ⟨e0, e1, e2, e3, e4, e5⟩ := idx_facts t
  funext j
  show k1_pay1 (iblk1 V c 0 t) (iblk1 V c 1 t) j = biasRelu (V c main_v7) (V c main_v8) (((cfg1.win 2).blk t).view.emb j)
  refine (pay_apply (iblk1 V c 0 t) (iblk1 V c 1 t) j).trans ?_
  show FloatOps.maximumf (FloatOps.addf (V c main_v7 (((cfg1.win 0).blk t).view.emb j)) (V c main_v8 (((cfg1.win 1).blk t).view.emb (biasAtBlk j)))) _
    = FloatOps.maximumf (FloatOps.addf (V c main_v7 (((cfg1.win 2).blk t).view.emb j)) (V c main_v8 (biasAt (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasAtBlk j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v9).slice (win1_2.rect t)).set ↔ _
  rw [View.set_slice_whole, Rect.mem_set_unit]
  exact Iff.rfl

/-- The 25 blocks of 2000 rows cover the 50000 rows: row `r` is in block `r / 2000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have q0 : win1_2.index t (0 : Fin 2) = (i 0).val / 2000 := ht
  obtain ⟨-, -, -, -, -, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE OUTPUT ARRAY after the launch: `max (a + b, 0)` of the aggregate and the bias row it was entered with. -/
theorem final (c : Dev nD) : (dat1 V c).arrAt 2 cfg1.N = biasRelu (V c main_v7) (V c main_v8) :=
  (dat1 V c).arrAt_eq_of_cover 2 (biasRelu (V c main_v7) (V c main_v8)) (fun t _ => flushed_eq V c t) cover

end Cert.KernelIdeal.Region1

end
-- ==== Proof.KernelValue.lean ====
/-
  The kernel program's result as one function of its six argument arrays, over the extended reals: the first
  launch's product, the host's gather, scaling and row sums, and the second launch's bias and rectification,
  composed along the buffer contents at each boundary of the run.
-/
import proofs.«424728_j53249004535835_1_alg».proof.Proof.Middle
import proofs.«424728_j53249004535835_1_alg».proof.Proof.Region0
import proofs.«424728_j53249004535835_1_alg».proof.Proof.Region1

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! The six argument arrays as launched, at their literal types. -/
abbrev feat (c : Dev nD) : FVec Ideal S50000x512 .f32 := m ((c : Thread nD τ).loc main_arg0)
abbrev rows (c : Dev nD) : IVec S1600000 32 := m ((c : Thread nD τ).loc main_arg1)
abbrev cols (c : Dev nD) : IVec S1600000 32 := m ((c : Thread nD τ).loc main_arg2)
abbrev vals (c : Dev nD) : FVec Ideal S1600000 .f32 := m ((c : Thread nD τ).loc main_arg3)
abbrev wts (c : Dev nD) : FVec Ideal S512x128 .f32 := m ((c : Thread nD τ).loc main_arg4)
abbrev bias (c : Dev nD) : FVec Ideal S128 .f32 := m ((c : Thread nD τ).loc main_arg5)

/-- The kernel's result as a function of the arguments. -/
abbrev value (c : Dev nD) : FVec Ideal S50000x128 .f32 :=
  Region1.biasRelu (F := Ideal)
    (Middle.aggregate (F := Ideal) (Middle.taken (F := Ideal) (Region0.matProd (feat m c) (wts m c)) (cols m c)) (rows m c) (vals m c))
    (Middle.biasRow (F := Ideal) (bias m c))

/-! ## After the first launch -/

theorem table_eq (c : Dev nD) : W1 m ρ c (Proc.devRef .tc main_v0) = Region0.matProd (feat m c) (wts m c) :=
  (W1_arr m ρ c 2).trans (Region0.final (V0 m ρ) c)

theorem W1_rows (c : Dev nD) : W1 m ρ c (Proc.devRef .tc main_arg1) = rows m c := W1_of_ne m ρ c main_arg1 (by decide)
theorem W1_cols (c : Dev nD) : W1 m ρ c (Proc.devRef .tc main_arg2) = cols m c := W1_of_ne m ρ c main_arg2 (by decide)
theorem W1_vals (c : Dev nD) : W1 m ρ c (Proc.devRef .tc main_arg3) = vals m c := W1_of_ne m ρ c main_arg3 (by decide)
theorem W1_bias (c : Dev nD) : W1 m ρ c (Proc.devRef .tc main_arg5) = bias m c := W1_of_ne m ρ c main_arg5 (by decide)

/-! ## After the gather stretch -/

theorem gathered_eq (c : Dev nD) :
    W2 m ρ c (Proc.devRef .tc main_v1) = Middle.taken (F := Ideal) (Region0.matProd (feat m c) (wts m c)) (cols m c) := by
  show StableHlo.after hostOps1 (W1 m ρ c) (Proc.devRef .tc main_v1) = _
  rw [Middle.take_eq, table_eq, W1_cols]

theorem W2_rows (c : Dev nD) : W2 m ρ c (Proc.devRef .tc main_arg1) = rows m c :=
  (Middle.take_keeps_arg1 (W1 m ρ c)).trans (W1_rows m ρ c)
theorem W2_vals (c : Dev nD) : W2 m ρ c (Proc.devRef .tc main_arg3) = vals m c :=
  (Middle.take_keeps_arg3 (W1 m ρ c)).trans (W1_vals m ρ c)
theorem W2_bias (c : Dev nD) : W2 m ρ c (Proc.devRef .tc main_arg5) = bias m c :=
  (Middle.take_keeps_arg5 (W1 m ρ c)).trans (W1_bias m ρ c)

/-! ## At the second launch's entry -/

theorem agg_at_entry (c : Dev nD) :
    W3 m ρ c (Proc.devRef .tc main_v7)
      = Middle.aggregate (F := Ideal) (Middle.taken (F := Ideal) (Region0.matProd (feat m c) (wts m c)) (cols m c)) (rows m c) (vals m c) := by
  show StableHlo.after hostOps1_1 (W2 m ρ c) (Proc.devRef .tc main_v7) = _
  rw [Middle.agg_eq, gathered_eq, W2_rows, W2_vals]

theorem bias_at_entry (c : Dev nD) : W3 m ρ c (Proc.devRef .tc main_v8) = Middle.biasRow (F := Ideal) (bias m c) := by
  show StableHlo.after hostOps1_1 (W2 m ρ c) (Proc.devRef .tc main_v8) = _
  rw [Middle.bias_eq, W2_bias]

/-! ## After the second launch -/

/-- THE RESULT BUFFER at the end of the run is `value` of the arguments as launched. -/
theorem result_eq (c : Dev nD) : W4 m ρ c (Proc.devRef .tc main_v9) = value m c := by
  refine (W4_arr m ρ c 2).trans ((Region1.final (V3 m ρ) c).trans ?_)
  show Region1.biasRelu (F := Ideal) (W3 m ρ c (Proc.devRef .tc main_v7)) (W3 m ρ c (Proc.devRef .tc main_v8)) = _
  rw [agg_at_entry, bias_at_entry]

end Cert.KernelIdeal.KernelValue

end
-- ==== Proof.WordRange.lean ====
/-
  One 32-bit word read as a signed row index into a table of 50000 rows.

  Both programs normalise an index `e` the same way: a negative `e` becomes `e + 50000`, any other stays.
  For `-50000 ≤ e < 50000` the normalised index lies in `[0, 49999]`, so a range test `0 ≤ · ≤ 49999` on it
  answers true: no wrap-around occurs, since `e + 50000` stays far below `2^31`.
-/
import Idealize.ShloMosaic.PureOps

namespace Cert.WordRange

open Idealize.ShloMosaic

/-- The index normalisation: a negative word counts from the end of the 50000 rows. -/
def wrap (e : BitVec 32) : BitVec 32 :=
  Scalar.select (IntOp.cmpi .slt e 0#32) (IntOp.addi e 50000#32) e

theorem ofBool_eq_one (b : Bool) : BitVec.ofBool b = 1#1 ↔ b = true := by cases b <;> decide

/-- The two signed bounds of the precondition, as integer inequalities. -/
theorem bounds_of_cmpi (e : BitVec 32) (hlo : IntOp.cmpi .sge e 4294917296#32 = 1#1)
    (hhi : IntOp.cmpi .slt e 50000#32 = 1#1) : -50000 ≤ e.toInt ∧ e.toInt < 50000 := by
  have h1 : (4294917296#32 : BitVec 32).sle e = true := (ofBool_eq_one _).mp hlo
  have h2 : e.slt 50000#32 = true := (ofBool_eq_one _).mp hhi
  rw [BitVec.sle_iff_toInt_le] at h1
  rw [BitVec.slt_iff_toInt_lt] at h2
  have c1 : (4294917296#32 : BitVec 32).toInt = -50000 := by decide
  have c2 : (50000#32 : BitVec 32).toInt = 50000 := by decide
  omega

/-- Inside `[-50000, 50000)` the normalised index passes the range test `0 ≤ · ≤ 49999`. -/
theorem wrap_in_range (e : BitVec 32) (hlo : IntOp.cmpi .sge e 4294917296#32 = 1#1)
    (hhi : IntOp.cmpi .slt e 50000#32 = 1#1) :
    IntOp.andi (IntOp.cmpi .sge (wrap e) 0#32) (IntOp.cmpi .sle (wrap e) 49999#32) = 1#1 := by
  obtain ⟨h1, h2⟩ := bounds_of_cmpi e hlo hhi
  have key : 0 ≤ (wrap e).toInt ∧ (wrap e).toInt ≤ 49999 := by
    unfold wrap Scalar.select IntOp.cmpi IntOp.addi
    by_cases hneg : e.slt 0#32 = true
    · rw [hneg]
      simp only [BitVec.ofBool_true, if_true]
      rw [BitVec.slt_iff_toInt_lt] at hneg
      have c0 : (0#32 : BitVec 32).toInt = 0 := by decide
      rw [BitVec.toInt_eq_toNat_cond] at h1 h2 hneg ⊢
      rw [BitVec.toNat_add]
      have c5 : (50000#32 : BitVec 32).toNat = 50000 := by decide
      rw [c5]
      have hl := e.isLt
      split at h1 <;> split <;> omega
    · have hneg' : e.slt 0#32 = false := by simpa using hneg
      rw [hneg']
      simp only [BitVec.ofBool_false]
      have c0 : (0#32 : BitVec 32).toInt = 0 := by decide
      have : ¬ e.toInt < 0 := by
        intro h; apply hneg; rw [BitVec.slt_iff_toInt_lt, c0]; exact h
      have hne : ¬ ((0 : BitVec 1) = 1) := by decide
      rw [if_neg hne]
      omega
  have a1 : IntOp.cmpi .sge (wrap e) 0#32 = 1#1 := by
    unfold IntOp.cmpi
    rw [ofBool_eq_one, BitVec.sle_iff_toInt_le]
    have c0 : (0#32 : BitVec 32).toInt = 0 := by decide
    omega
  have a2 : IntOp.cmpi .sle (wrap e) 49999#32 = 1#1 := by
    unfold IntOp.cmpi
    rw [ofBool_eq_one, BitVec.sle_iff_toInt_le]
    have c9 : (49999#32 : BitVec 32).toInt = 49999 := by decide
    omega
  rw [a1, a2]; decide

end Cert.WordRange
-- ==== Proof.AllOnes.lean ====
/-
  An `and` reduction of bits that are all 1, started from 1, is 1 at every result index: the reduction is a left
  fold of `and` over the operand entries that reduce into the index, and `1 and 1 = 1`.
-/
import Idealize.ShloMosaic.Lib.ReduceAll

namespace Cert.AllOnes

open Idealize.ShloMosaic

/-- A left fold by `and` from 1 over entries that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l (fun n hn => h n (List.mem_cons_of_mem _ hn))

/-- A reduction by `and` from the initial value 1 of a vector of ones is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun n _ => hx n)

end Cert.AllOnes
-- ==== Proof.Bridge.lean ====
/-
  The two programs compute one function of the six arguments, where every column index lies in `[-50000, 50000)`.

  Kernel: the product `x · w` (first launch), its rows gathered at the normalised column indices with out-of-range
  rows filled, scaled by the edge weights and summed into the rows the edges name, then `max (· + bias, 0)` (second
  launch). Reference: the same product, gather without a fill, scaling, row sums, bias and rectification on the host.
  In range the fill never applies: the normalised index passes the range test, so the mask is 1 at every edge and the
  filled gather is the gather. Everything else is the same operations applied to equal values.
-/
import proofs.«424728_j53249004535835_1_alg».proof.Proof.Middle
import proofs.«424728_j53249004535835_1_alg».proof.Proof.Region0
import proofs.«424728_j53249004535835_1_alg».proof.Proof.Region1
import proofs.«424728_j53249004535835_1_alg».proof.Proof.WordRange
import proofs.«424728_j53249004535835_1_alg».proof.Proof.AllOnes
import proofs.«424728_j53249004535835_1_alg».proof.Proof.Gen.ReferenceIdeal.Read

set_option maxRecDepth 16384

noncomputable section

namespace Cert.Bridge

open Idealize.ShloMosaic Cert.KernelIdeal Cert.KernelIdeal.Facts₀ Cert.KernelIdeal.Facts

/-- Every column index lies in `[-50000, 50000)`, as the two signed comparisons of the precondition. -/
def ColsInRange (e : IVec S1600000 32) : Prop :=
  ∀ k : S1600000.Idx, IntOp.cmpi .sge (e k) 4294917296#32 = 1#1 ∧ IntOp.cmpi .slt (e k) 50000#32 = 1#1

/-- In range, the range test of the normalised index answers 1 at every edge. -/
theorem inRange_one (e : IVec S1600000 32) (hr : ColsInRange e) (k : S1600000.Idx) : Middle.inRange e k = 1#1 := by
  unfold Middle.inRange
  refine AllOnes.reduce_andi_one _ _ _ _ rfl (fun i => ?_) k
  obtain ⟨p, hp⟩ : ∃ p : S1600000.Idx, Middle.idxCol e i = WordRange.wrap (e p) := ⟨_, rfl⟩
  show IntOp.andi (IntOp.cmpi .sge (Middle.idxCol e i) 0#32) (IntOp.cmpi .sle (Middle.idxCol e i) 49999#32) = 1#1
  rw [hp]
  exact WordRange.wrap_in_range (e p) (hr p).1 (hr p).2

variable {F : FTy → Type} [FloatOps F]

/-- In range, the filled gather is the gather. -/
theorem taken_eq_gather (s : FVec F S50000x128 .f32) (e : IVec S1600000 32) (hr : ColsInRange e) :
    Middle.taken s e = Host.gather gather_S50000x128_S1600000x1_S1600000x128_1_0_n_n_0_1_1128 s (Middle.idxCol e) := by
  funext i
  unfold Middle.taken
  obtain ⟨p, hp⟩ : ∃ p : S1600000.Idx,
      broadcastInDim S1600000x128 ![0] bcast_S1600000_S1600000x128_0 (Middle.inRange e) i = Middle.inRange e p := ⟨_, rfl⟩
  show Scalar.select (broadcastInDim S1600000x128 ![0] bcast_S1600000_S1600000x128_0 (Middle.inRange e) i) _ _ = _
  rw [hp, inRange_one e hr p]
  rfl

/-- The first launch's product is the reference's matrix product: both are `∑ k, x (r, k) · w (k, q)`. -/
theorem matProd_eq (x0 : FVec Ideal S50000x512 .f32) (x4 : FVec Ideal S512x128 .f32) :
    Region0.matProd x0 x4 = Cert.ReferenceIdeal.Read.val_main_v0 (F := Ideal) x0 x4 := by
  funext i
  rw [Cert.ReferenceIdeal.Read.val_main_v0_apply]
  rfl

/-- The bias row above column `q` is the bias vector's entry `q`: a vector laid out as one row keeps its order. -/
theorem biasRow_apply (x5 : FVec Ideal S128 .f32) (i : S50000x128.Idx) :
    Middle.biasRow (F := Ideal) x5 (Region1.biasAt i)
      = x5 (Cert.ReferenceIdeal.Read.idx_main_v14 (Cert.ReferenceIdeal.Read.idx_main_v15 i)) := by
  unfold Middle.biasRow
  refine shapeCast_apply x5 _ _ _ ?_
  rw [Shape.rowMajor_val_one, Shape.rowMajor_val_two]
  show (i 1).val = 0 * 128 + (i 1).val
  omega

/-- THE TWO PROGRAMS' RESULTS AGREE where the column indices are in range: the kernel's composed function of the six
    arguments is the reference's last stage. -/
theorem kernel_eq_reference (x0 : FVec Ideal S50000x512 .f32) (x1 x2 : IVec S1600000 32) (x3 : FVec Ideal S1600000 .f32)
    (x4 : FVec Ideal S512x128 .f32) (x5 : FVec Ideal S128 .f32) (hr : ColsInRange x2) :
    Region1.biasRelu (F := Ideal)
        (Middle.aggregate (F := Ideal) (Middle.taken (F := Ideal) (Region0.matProd x0 x4) x2) x1 x3)
        (Middle.biasRow (F := Ideal) x5)
      = Cert.ReferenceIdeal.Read.val_main_v17 (F := Ideal) x0 x1 x2 x3 x4 x5 := by
  rw [taken_eq_gather _ _ hr, matProd_eq]
  funext i
  rw [Cert.ReferenceIdeal.Read.val_main_v17_apply, Cert.ReferenceIdeal.Read.val_main_v16_apply,
    Cert.ReferenceIdeal.Read.val_main_call0_v0_apply, Cert.ReferenceIdeal.Read.val_main_call0_cst_apply,
    Cert.ReferenceIdeal.Read.val_main_v15_apply, Cert.ReferenceIdeal.Read.val_main_v14_apply, ← biasRow_apply x5 i]
  rfl

end Cert.Bridge

end
-- ==== Proof.lean ====
/-
  A graph convolution layer, `max (A · (x · w) + b, 0)` with the sparse matrix `A` given by its edges
  `(row, col, value)`: the kernel program against its host reference, over the extended reals.

  Both programs form the dense product `x · w` (the kernel in a launch of 50 row blocks, from bf16 narrowings that are
  the identity on exact values; the reference in one host product), gather its rows at the edges' column indices,
  scale each by its edge's value, sum the scaled rows into the rows the edges name, add the bias and take the maximum
  with zero (the kernel in a second launch of 25 row blocks). They differ in one place: the kernel's gather fills a row
  whose normalised column index fails the range test `0 ≤ · ≤ 49999`, the reference's reads the nearest row instead.
  The precondition keeps every column index in `[-50000, 50000)`, where the reference's index is in range; there a
  negative index counts from the end, the normalised index passes the test, and the fill never applies
  (Proof/WordRange.lean, Proof/Bridge.lean). Every other step is the same operation applied to equal values; no law of
  the extended reals beyond that is used, so finiteness of the inputs is not.

  The frames: the two kernel programs' are the generated frame certificates; the reference's is its run with the
  result dropped. The idealization rewrote nothing, so `preserves` holds trivially. The value claim sets the kernel's
  run, its result buffer named (Proof/KernelRun.lean) and read as one function of the arguments
  (Proof/Region0.lean, Proof/Middle.lean, Proof/Region1.lean, Proof/KernelValue.lean), beside the reference's run.
-/
import proofs.«424728_j53249004535835_1_alg».proof.Defs
import proofs.«424728_j53249004535835_1_alg».proof.Proof.Gen.Kernel
import proofs.«424728_j53249004535835_1_alg».proof.Proof.Gen.Kernel.Skeleton
import proofs.«424728_j53249004535835_1_alg».proof.Proof.Gen.Kernel.Launch
import proofs.«424728_j53249004535835_1_alg».proof.Proof.Gen.Kernel.Points
import proofs.«424728_j53249004535835_1_alg».proof.Proof.Gen.Kernel.Frame
import proofs.«424728_j53249004535835_1_alg».proof.Proof.Gen.KernelIdeal
import proofs.«424728_j53249004535835_1_alg».proof.Proof.Gen.KernelIdeal.Skeleton
import proofs.«424728_j53249004535835_1_alg».proof.Proof.Gen.KernelIdeal.Launch
import proofs.«424728_j53249004535835_1_alg».proof.Proof.Gen.KernelIdeal.Points
import proofs.«424728_j53249004535835_1_alg».proof.Proof.Gen.KernelIdeal.Frame
import proofs.«424728_j53249004535835_1_alg».proof.Proof.Gen.ReferenceIdeal
import proofs.«424728_j53249004535835_1_alg».proof.Proof.Gen.ReferenceIdeal.Run
import proofs.«424728_j53249004535835_1_alg».proof.Proof.Gen.ReferenceIdeal.Read
import proofs.«424728_j53249004535835_1_alg».proof.Proof.Gen.Pre_finite_inputs
import proofs.«424728_j53249004535835_1_alg».proof.Proof.PreRange
import proofs.«424728_j53249004535835_1_alg».proof.Proof.KernelRun
import proofs.«424728_j53249004535835_1_alg».proof.Proof.KernelValue
import proofs.«424728_j53249004535835_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the kernel's column indices lie in `[-50000, 50000)` on every device. -/
theorem cols_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Bridge.ColsInRange (Cert.KernelIdeal.KernelValue.cols m c) :=
  fun k => Cert.PreRange.col_range _ _ _ _ _ _ (hpre c) k

/-- Both runs end with the result at the kernel's function of the arguments: the kernel's by its run read back, the
    reference's because in range its last stage is that function. -/
theorem algebraic : Cert.algebraic_KernelIdeal_ReferenceIdeal := by
  intro m ρ m' ρ' hpre hagree
  refine ⟨fun c => Cert.KernelIdeal.KernelValue.value m c, ?_, ?_⟩
  · exact (θ_run Cert.KernelIdeal.defs _ _).mono
      (fun r h c => ⟨(h c).1.trans (Cert.KernelIdeal.KernelValue.result_eq m ρ c), (h c).2⟩)
      (Cert.KernelIdeal.Run.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v17_eq _ _ _ _ _ _).trans
      (Cert.Bridge.kernel_eq_reference _ _ _ _ _ _ (cols_in_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
